-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S2x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x16x2048x64_S32x2048x64 : S2x16x2048x64.ShapeCasts S32x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  shapeCasts_S32x2048x64_S2x16x2048x64 : S32x2048x64.ShapeCasts S2x16x2048x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S_, .f32⟩
  | .hbm, ⟨4, _⟩ => ⟨S2x16x2048x64, .f32⟩
  | .hbm, ⟨5, _⟩ => ⟨S2x16x2048x64, .f32⟩
  | .hbm, ⟨6, _⟩ => ⟨S2x16x2048x2048, .f32⟩
  | .hbm, ⟨7, _⟩ => ⟨S_, .f32⟩
  | .hbm, ⟨8, _⟩ => ⟨S2x16x2048, .f32⟩
  | .hbm, ⟨9, _⟩ => ⟨S_, .f32⟩
  | .hbm, ⟨10, _⟩ => ⟨S2x16x2048, .f32⟩
  | .hbm, ⟨11, _⟩ => ⟨S2x16x2048, .f32⟩
  | .hbm, ⟨12, _⟩ => ⟨S2x16x2048x1, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x16x2048x64 : S_.BroadcastsInDim S2x16x2048x64 (![] : Fin 0 → Fin S2x16x2048x64.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibRealVariance.lean ====
/-
  The calculus of "this extended real is a real number", and the variance law.

  A float is read as an extended real; the sum, difference and product of two extended reals that
  are real numbers are the real sum, difference and product, and a quotient by a nonzero real is the
  real quotient. So a column of real numbers has a real mean, and its variance computed as
  E[a²] − E[a]² equals the variance computed as E[(a − E a)²]: the identity is the textbook one in ℝ,
  carried back along the embedding ℝ → [-∞, +∞]. (At an infinity the two differ; that is why every
  entry is assumed real.)
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.BigOperators.Group.Finset.Sigma
import Mathlib.Algebra.Order.BigOperators.Group.Finset
import Mathlib.Logic.Equiv.Fin.Basic
import Mathlib.Tactic.FieldSimp
import Mathlib.Tactic.Ring
import Mathlib.Tactic.NormNum

noncomputable section

namespace Cert.Alg

open Idealize.ShloMosaic
open scoped BigOperators

/-- An extended real that is a real number. -/
def IsReal (x : EReal) : Prop := ∃ r : ℝ, x = (r : EReal)

namespace IsReal

/-- A real number, embedded, is a real number. -/
theorem coe (r : ℝ) : IsReal (r : EReal) := ⟨r, rfl⟩

theorem zero : IsReal 0 := ⟨0, rfl⟩

theorem one : IsReal 1 := ⟨1, rfl⟩

/-- The sum of two reals is the real sum. -/
theorem add {x y : EReal} (hx : IsReal x) (hy : IsReal y) : IsReal (x + y) := by
  obtain ⟨a, rfl⟩ := hx
  obtain ⟨b, rfl⟩ := hy
  exact ⟨a + b, (EReal.coe_add a b).symm⟩

/-- The negation of a real is the real negation. -/
theorem neg {x : EReal} (hx : IsReal x) : IsReal (-x) := by
  obtain ⟨a, rfl⟩ := hx
  exact ⟨-a, (EReal.coe_neg a).symm⟩

/-- The difference of two reals is the real difference. -/
theorem sub {x y : EReal} (hx : IsReal x) (hy : IsReal y) : IsReal (x - y) := by
  obtain ⟨a, rfl⟩ := hx
  obtain ⟨b, rfl⟩ := hy
  exact ⟨a - b, (EReal.coe_sub a b).symm⟩

/-- The product of two reals is the real product. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- The greater of two reals is one of them. -/
theorem max {x y : EReal} (hx : IsReal x) (hy : IsReal y) : IsReal (max x y) := by
  rcases max_choice x y with h | h <;> rw [h] <;> assumption

/-- The lesser of two reals is one of them. -/
theorem min {x y : EReal} (hx : IsReal x) (hy : IsReal y) : IsReal (min x y) := by
  rcases min_choice x y with h | h <;> rw [h] <;> assumption

/-- A finite sum of reals is a real: by induction on the index set. -/
theorem finset_sum {ι : Type*} (s : Finset ι) (a : ι → EReal) (h : ∀ i ∈ s, IsReal (a i)) :
    IsReal (∑ i ∈ s, a i) := by
  classical
  induction s using Finset.induction_on with
  | empty => simpa using zero
  | insert j s hj ih =>
    rw [Finset.sum_insert hj]
    exact add (h j (Finset.mem_insert_self j s)) (ih fun i hi => h i (Finset.mem_insert_of_mem hi))

/-- The sum of a whole finite family of reals is a real. -/
theorem sum {ι : Type*} [Fintype ι] (a : ι → EReal) (h : ∀ i, IsReal (a i)) : IsReal (∑ i, a i) :=
  finset_sum Finset.univ a fun i _ => h i

/-- The quotient of a real by a nonzero real is the real quotient (the product with the reciprocal). -/
theorem div {x y : EReal} (hx : IsReal x) (hy : IsReal y) (hy0 : y ≠ 0) : IsReal (Ideal.div x y) := by
  obtain ⟨b, rfl⟩ := hy
  have hb : b ≠ 0 := fun h => hy0 (by rw [h]; rfl)
  rw [Ideal.div_coe hb]
  exact mul hx (coe _)

/-- The reciprocal square root of a positive real r is the real (√r)⁻¹. -/
theorem rsqrt_of_pos {x : EReal} (hx : IsReal x) (h0 : 0 < x) : IsReal (Ideal.rsqrt x) := by
  obtain ⟨r, rfl⟩ := hx
  have hr : 0 < r := EReal.coe_pos.mp h0
  rw [Ideal.rsqrt_coe, if_neg (not_lt.mpr hr.le), if_neg hr.ne']
  exact coe _

end IsReal

/-- A real number is an extended real that is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real whose absolute value, max x (-x), is below +∞ is a real number: at ⊤ the
    first argument is ⊤, at ⊥ the second is. -/
theorem isReal_of_abs_lt_top {x : EReal} (h : max x (-x) < ⊤) : IsReal x := by
  rw [isReal_iff]
  constructor
  · rintro rfl
    exact absurd h (by simp)
  · rintro rfl
    exact absurd h (by simp)

/-! ### The four literals -/

/-- The pattern of 200000.0 denotes the real 200000. -/
theorem ofBits_N : Ideal.ofBits .f32 0x48435000#32 = ((200000 : ℝ) : EReal) := by
  simp [Ideal.ofBits, Ideal.ieee, -EReal.coe_mul]; norm_num

/-- The pattern of +0.0 denotes 0. -/
theorem ofBits_zero : Ideal.ofBits .f32 0x00000000#32 = 0 := Ideal.ofBits_zero_f32

/-- The pattern of 1.0 denotes the real 1. -/
theorem ofBits_one : Ideal.ofBits .f32 0x3F800000#32 = ((1 : ℝ) : EReal) := by
  simp [Ideal.ofBits, Ideal.ieee, -EReal.coe_mul]; norm_num

/-- The pattern 0x3727C5AC (the float nearest 1e-5) denotes a positive real, 10995116 · 2⁻⁴⁰.
    Only its sign and finiteness are used. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ### Sums of reals -/

/-- The embedding of the reals carries a finite sum to the sum of the embedded terms. -/
theorem coe_finset_sum {ι : Type*} (s : Finset ι) (r : ι → ℝ) :
    ((∑ i ∈ s, r i : ℝ) : EReal) = ∑ i ∈ s, (r i : EReal) := by
  classical
  induction s using Finset.induction_on with
  | empty => simp
  | insert j s hj ih => rw [Finset.sum_insert hj, Finset.sum_insert hj, EReal.coe_add, ih]

/-- The mean of a column of embedded reals over a nonzero real count is the embedded real mean. -/
theorem div_sum_coe {ι : Type*} [Fintype ι] (r : ι → ℝ) {N : ℝ} (hN0 : N ≠ 0) :
    Ideal.div (∑ i, (r i : EReal)) (N : EReal) = (((∑ i, r i) * (1 / N) : ℝ) : EReal) := by
  rw [Ideal.div_coe hN0, ← coe_finset_sum, ← EReal.coe_mul]

/-! ### The variance law in ℝ -/

/-- The sum of squared deviations from any m, expanded. -/
theorem real_sum_sq_dev {ι : Type*} [Fintype ι] (r : ι → ℝ) (m : ℝ) :
    ∑ i, (r i - m) * (r i - m)
      = (∑ i, r i * r i) - 2 * m * (∑ i, r i) + (Fintype.card ι : ℝ) * (m * m) := by
  have h : ∀ i, (r i - m) * (r i - m) = r i * r i - 2 * m * r i + m * m := fun i => by ring
  simp only [h, Finset.sum_add_distrib, Finset.sum_sub_distrib, ← Finset.mul_sum, Finset.sum_const,
    Finset.card_univ, nsmul_eq_mul]
  ring

/-- E[r²] − E[r]² = E[(r − E r)²] over N ≠ 0 real entries. -/
theorem real_variance_eq {ι : Type*} [Fintype ι] (r : ι → ℝ) (N : ℝ)
    (hN : (Fintype.card ι : ℝ) = N) (hN0 : N ≠ 0) :
    (∑ i, r i * r i) * (1 / N) - (∑ i, r i) * (1 / N) * ((∑ i, r i) * (1 / N))
      = (∑ i, (r i - (∑ i, r i) * (1 / N)) * (r i - (∑ i, r i) * (1 / N))) * (1 / N) := by
  rw [real_sum_sq_dev, hN]
  field_simp
  ring

/-- The mean of squared deviations is a nonnegative real: a sum of squares times 1 / N, N a count. -/
theorem real_variance_nonneg {ι : Type*} [Fintype ι] (r : ι → ℝ) (m : ℝ) (N : ℝ)
    (hN : (Fintype.card ι : ℝ) = N) :
    0 ≤ (∑ i, (r i - m) * (r i - m)) * (1 / N) := by
  have hN' : 0 ≤ N := hN ▸ Nat.cast_nonneg _
  exact mul_nonneg (Finset.sum_nonneg fun i _ => mul_self_nonneg _) (one_div_nonneg.mpr hN')

/-! ### The variance law at the extended reals -/

/-- The mean of squared deviations of a column of embedded reals is the embedded real one. -/
theorem div_sum_sq_dev_coe {ι : Type*} [Fintype ι] (r : ι → ℝ) {N : ℝ} (hN0 : N ≠ 0) :
    Ideal.div (∑ i, ((r i : EReal) - Ideal.div (∑ i, (r i : EReal)) (N : EReal))
        * ((r i : EReal) - Ideal.div (∑ i, (r i : EReal)) (N : EReal))) (N : EReal)
      = (((∑ i, (r i - (∑ i, r i) * (1 / N)) * (r i - (∑ i, r i) * (1 / N))) * (1 / N) : ℝ) : EReal) := by
  simp only [div_sum_coe r hN0, ← EReal.coe_sub, ← EReal.coe_mul]
  exact div_sum_coe (fun i => (r i - (∑ i, r i) * (1 / N)) * (r i - (∑ i, r i) * (1 / N))) hN0

/-- THE LAW: for a column of N ≠ 0 real entries, the variance as E[a²] − E[a]² is the variance as
    E[(a − E a)²]. -/
theorem variance_eq {ι : Type} [Fintype ι] (a : ι → EReal) (ha : ∀ i, IsReal (a i)) (N : ℝ)
    (hN : (Fintype.card ι : ℝ) = N) (hN0 : N ≠ 0) :
    Ideal.div (∑ i, a i * a i) (N : EReal)
        - Ideal.div (∑ i, a i) (N : EReal) * Ideal.div (∑ i, a i) (N : EReal)
      = Ideal.div (∑ i, (a i - Ideal.div (∑ i, a i) (N : EReal))
          * (a i - Ideal.div (∑ i, a i) (N : EReal))) (N : EReal) := by
  choose r hr using ha
  obtain rfl : a = fun i => (r i : EReal) := funext hr
  rw [div_sum_sq_dev_coe r hN0, div_sum_coe r hN0]
  simp only [← EReal.coe_mul]
  rw [div_sum_coe (fun i => r i * r i) hN0, ← EReal.coe_sub, real_variance_eq r N hN hN0]

/-- The variance of a column of N ≠ 0 real entries is a nonnegative real. -/
theorem variance_nonneg {ι : Type} [Fintype ι] (a : ι → EReal) (ha : ∀ i, IsReal (a i)) (N : ℝ)
    (hN : (Fintype.card ι : ℝ) = N) (hN0 : N ≠ 0) :
    ∃ v : ℝ, 0 ≤ v ∧
      Ideal.div (∑ i, (a i - Ideal.div (∑ i, a i) (N : EReal))
          * (a i - Ideal.div (∑ i, a i) (N : EReal))) (N : EReal) = (v : EReal) := by
  choose r hr using ha
  obtain rfl : a = fun i => (r i : EReal) := funext hr
  exact ⟨_, real_variance_nonneg r _ N hN, div_sum_sq_dev_coe r hN0⟩

/-- The mean of a column of real entries over a nonzero real count is a real. -/
theorem mean_isReal {ι : Type} [Fintype ι] (a : ι → EReal) (ha : ∀ i, IsReal (a i)) (N : ℝ)
    (hN0 : N ≠ 0) : IsReal (Ideal.div (∑ i, a i) (N : EReal)) :=
  IsReal.div (IsReal.sum a ha) (IsReal.coe N) (by exact_mod_cast hN0)

/-! ### The same, with each sum written from an initial zero

A float sum on the host is "the initial value plus the sum"; with the initial value 0 that is the sum. -/

theorem variance_eq_zero_add {ι : Type} [Fintype ι] (a : ι → EReal) (ha : ∀ i, IsReal (a i)) (N : ℝ)
    (hN : (Fintype.card ι : ℝ) = N) (hN0 : N ≠ 0) :
    Ideal.div (0 + ∑ i, a i * a i) (N : EReal)
        - Ideal.div (0 + ∑ i, a i) (N : EReal) * Ideal.div (0 + ∑ i, a i) (N : EReal)
      = Ideal.div (0 + ∑ i, (a i - Ideal.div (0 + ∑ i, a i) (N : EReal))
          * (a i - Ideal.div (0 + ∑ i, a i) (N : EReal))) (N : EReal) := by
  simp only [zero_add]
  exact variance_eq a ha N hN hN0

theorem variance_nonneg_zero_add {ι : Type} [Fintype ι] (a : ι → EReal) (ha : ∀ i, IsReal (a i))
    (N : ℝ) (hN : (Fintype.card ι : ℝ) = N) (hN0 : N ≠ 0) :
    ∃ v : ℝ, 0 ≤ v ∧
      Ideal.div (0 + ∑ i, (a i - Ideal.div (0 + ∑ i, a i) (N : EReal))
          * (a i - Ideal.div (0 + ∑ i, a i) (N : EReal))) (N : EReal) = (v : EReal) := by
  simp only [zero_add]
  exact variance_nonneg a ha N hN hN0

/-! ### Regrouping a sum into blocks -/

/-- A sum over γ is the iterated sum over α then β along any bijection α × β ≃ γ. -/
theorem sum_regroup {α β γ M : Type*} [Fintype α] [Fintype β] [Fintype γ] [AddCommMonoid M]
    (e : α × β ≃ γ) (f : γ → M) : ∑ x, ∑ y, f (e (x, y)) = ∑ k, f k := by
  rw [← Fintype.sum_prod_type (fun p : α × β => f (e p))]
  exact Fintype.sum_equiv e _ _ fun _ => rfl

/-- The 200000 rows as 20 blocks of 10000: (b, r) ↦ 10000 · b + r. -/
def blockEquiv : Fin 20 × Fin 10000 ≃ Fin 200000 := finProdFinEquiv

theorem blockEquiv_val (b : Fin 20) (r : Fin 10000) :
    (blockEquiv (b, r)).val = 10000 * b.val + r.val := by
  show r.val + 10000 * b.val = 10000 * b.val + r.val
  exact Nat.add_comm _ _

/-- A sum over the 200000 rows is the sum over the 20 blocks of the sums over each block's 10000 rows. -/
theorem sum_blocks {M : Type*} [AddCommMonoid M] (f : Fin 200000 → M) :
    ∑ b : Fin 20, ∑ r : Fin 10000, f (blockEquiv (b, r)) = ∑ k, f k :=
  sum_regroup blockEquiv f

end Cert.Alg

end
-- ==== Proof.LibSoftmax.lean ====
/-
  Softmax over a finite row of real numbers, on the extended reals.

  A row s of real numbers has a real maximum M (the fold of max from -∞ over a nonempty row); every
  weight e j = exp (s j - M) is a positive real, so their sum L is a positive real; and for real values
  v j the weighted average can divide by L before or after the sum:
      ∑ j, (e j / L) · v j  =  (∑ j, e j · v j) / L.
  In ℝ this is distributivity. On [-∞, +∞] distributivity fails at the infinities, which is why every
  entry is assumed to be a real number.
-/
import proofs.«405103_j67594195305169_3_alg».proof.Proof.LibRealVariance
import Idealize.ShloMosaic.PureOps.Ideal
import Mathlib.Data.Finset.Fold
import Mathlib.Analysis.SpecialFunctions.Exp

noncomputable section

namespace Cert.Softmax

open Idealize.ShloMosaic Cert.Alg
open scoped BigOperators

/-- The f32 pattern of -∞ denotes the bottom of the extended reals. -/
theorem ofBits_neg_inf : Ideal.ofBits .f32 0xFF800000#32 = ⊥ := by simp [Ideal.ofBits, Ideal.ieee]

/-- The f32 pattern of 0.125 denotes the real 1/8. -/
theorem ofBits_eighth : Ideal.ofBits .f32 0x3E000000#32 = ((1 / 8 : ℝ) : EReal) := by
  simp [Ideal.ofBits, Ideal.ieee, -EReal.coe_mul]; norm_num

/-- The maximum of a nonempty finite row of reals, folded from -∞, is a real: it is above some entry,
    which is above -∞, and below +∞ as every entry is. -/
theorem isReal_fold_max {ι : Type*} [Fintype ι] [Nonempty ι] (s : ι → EReal) (hs : ∀ j, IsReal (s j)) :
    IsReal ((Finset.univ : Finset ι).fold max ⊥ s) := by
  rw [isReal_iff]
  constructor
  · refine ne_of_lt ?_
    rw [Finset.fold_max_lt]
    refine ⟨bot_lt_top, fun j _ => ?_⟩
    obtain ⟨r, hr⟩ := hs j
    rw [hr]; exact EReal.coe_lt_top r
  · refine ne_of_gt ?_
    rw [Finset.lt_fold_max]
    obtain ⟨j⟩ := (inferInstance : Nonempty ι)
    obtain ⟨r, hr⟩ := hs j
    exact Or.inr ⟨j, Finset.mem_univ j, by rw [hr]; exact EReal.bot_lt_coe r⟩

/-- The exponential of a difference of two reals is a positive real. -/
theorem exp_sub_pos {x M : EReal} (hx : IsReal x) (hM : IsReal M) :
    ∃ r : ℝ, 0 < r ∧ Ideal.exp (x - M) = (r : EReal) := by
  obtain ⟨a, rfl⟩ := hx
  obtain ⟨b, rfl⟩ := hM
  refine ⟨Real.exp (a - b), Real.exp_pos _, ?_⟩
  rw [← EReal.coe_sub, Ideal.exp_coe]

/-- THE LAW. For positive real weights e and real values v over a nonempty finite row, normalising
    each weight by the total before the weighted sum equals normalising the weighted sum by the total. -/
theorem sum_div_mul_eq_div_sum {ι : Type*} [Fintype ι] [Nonempty ι] (e v : ι → EReal)
    (he : ∀ j, ∃ r : ℝ, 0 < r ∧ e j = (r : EReal)) (hv : ∀ j, IsReal (v j)) :
    ∑ j, Ideal.div (e j) (∑ j, e j) * v j = Ideal.div (∑ j, e j * v j) (∑ j, e j) := by
  choose r hr using he
  choose w hw using hv
  obtain rfl : e = fun j => (r j : EReal) := funext fun j => (hr j).2
  obtain rfl : v = fun j => (w j : EReal) := funext hw
  have hl : (0 : ℝ) < ∑ j, r j := Finset.sum_pos (fun j _ => (hr j).1) Finset.univ_nonempty
  rw [← coe_finset_sum]
  simp only [Ideal.div_coe hl.ne', ← EReal.coe_mul]
  rw [← coe_finset_sum, ← coe_finset_sum, ← EReal.coe_mul]
  congr 1
  rw [Finset.sum_mul]
  exact Finset.sum_congr rfl fun j _ => by ring

end Cert.Softmax

end
-- ==== Proof.Spec.lean ====
/-
  Single-head softmax attention, row by row, on the extended reals.

  For one query row q (64 entries), the keys k (2048 rows of 64) and one column v of the values
  (2048 entries):
      score j   = ∑ d, (q d · 1/8) · k j d
      rowMax    = the maximum of the scores, folded from -∞
      weight j  = exp (score j - rowMax)
  and the output entry is the weights' average of v. It can be taken in two orders:
      attnK = (∑ j, weight j · v j) / (∑ j, weight j)        (divide after the weighted sum)
      attnR = ∑ j, (weight j / ∑ j, weight j) · v j          (normalise the weights first)
  For real q, k, v the two agree (attnR_eq_attnK): the scores are real, so the maximum is real, the
  weights are positive reals, and the identity is distributivity in ℝ.

  The arrays: out4 is attnK over [2,16,2048,64] arrays (batch, head, position, feature), ref4 is attnR
  over the same; out3 is attnK over [32,2048,64] arrays, where batch and head are one axis 16·b + h.
  Flattening the two leading axes and unflattening the result turns out3 into out4 (unflatten_out3).
-/
import proofs.«405103_j67594195305169_3_alg».proof.Proof.LibSoftmax
import Idealize.ShloMosaic.Lib.ValueIdx
import Idealize.ShloMosaic.Lib.Pipeline.Value

noncomputable section

namespace Cert.Attn

open Idealize.ShloMosaic Idealize.ShloMosaic.ValueIdx Cert.Alg Cert.Softmax
open scoped BigOperators

abbrev S4 : Shape := ⟨4, ![2, 16, 2048, 64]⟩
abbrev S3 : Shape := ⟨3, ![32, 2048, 64]⟩

/-- The factor 1/√64 = 1/8 the queries are scaled by, as its f32 pattern. -/
def scale : EReal := Ideal.ofBits .f32 0x3E000000#32

/-- The score of key row j against the scaled query row. -/
def score (q : Fin 64 → EReal) (k : Fin 2048 → Fin 64 → EReal) (j : Fin 2048) : EReal :=
  ∑ d : Fin 64, (q d * scale) * k j d

/-- The largest score of the row, folded from -∞. -/
def rowMax (q : Fin 64 → EReal) (k : Fin 2048 → Fin 64 → EReal) : EReal :=
  (Finset.univ : Finset (Fin 2048)).fold max (Ideal.ofBits .f32 0xFF800000#32) (score q k)

/-- The unnormalised softmax weight of key j. -/
def weight (q : Fin 64 → EReal) (k : Fin 2048 → Fin 64 → EReal) (j : Fin 2048) : EReal :=
  Ideal.exp (score q k j - rowMax q k)

/-- The attention output entry, dividing the weighted sum by the weights' total. -/
def attnK (q : Fin 64 → EReal) (k : Fin 2048 → Fin 64 → EReal) (v : Fin 2048 → EReal) : EReal :=
  Ideal.div (∑ j, weight q k j * v j) (∑ j, weight q k j)

/-- The attention output entry, normalising each weight by the total first. -/
def attnR (q : Fin 64 → EReal) (k : Fin 2048 → Fin 64 → EReal) (v : Fin 2048 → EReal) : EReal :=
  ∑ j, Ideal.div (weight q k j) (∑ j, weight q k j) * v j

theorem scale_isReal : IsReal scale := ⟨_, ofBits_eighth⟩

/-- Real queries and keys have real scores. -/
theorem score_isReal {q : Fin 64 → EReal} {k : Fin 2048 → Fin 64 → EReal} (hq : ∀ d, IsReal (q d))
    (hk : ∀ j d, IsReal (k j d)) (j : Fin 2048) : IsReal (score q k j) :=
  IsReal.sum _ fun d => IsReal.mul (IsReal.mul (hq d) scale_isReal) (hk j d)

/-- Real scores have a real maximum. -/
theorem rowMax_isReal {q : Fin 64 → EReal} {k : Fin 2048 → Fin 64 → EReal} (hq : ∀ d, IsReal (q d))
    (hk : ∀ j d, IsReal (k j d)) : IsReal (rowMax q k) := by
  unfold rowMax
  rw [ofBits_neg_inf]
  exact isReal_fold_max _ (score_isReal hq hk)

/-- The two orders of normalising agree on real inputs. -/
theorem attnR_eq_attnK {q : Fin 64 → EReal} {k : Fin 2048 → Fin 64 → EReal} {v : Fin 2048 → EReal}
    (hq : ∀ d, IsReal (q d)) (hk : ∀ j d, IsReal (k j d)) (hv : ∀ j, IsReal (v j)) :
    attnR q k v = attnK q k v :=
  sum_div_mul_eq_div_sum (weight q k) v
    (fun j => exp_sub_pos (score_isReal hq hk j) (rowMax_isReal hq hk)) hv

/-! ## The arrays -/

/-- Attention over [2,16,2048,64] arrays, dividing last. -/
def out4 (Q K V : S4.Idx → EReal) : S4.Idx → EReal := fun y =>
  attnK (fun d => Q (ix4 (y 0) (y 1) (y 2) d)) (fun j d => K (ix4 (y 0) (y 1) j d)) (fun j => V (ix4 (y 0) (y 1) j (y 3)))

/-- Attention over [2,16,2048,64] arrays, normalising the weights first. -/
def ref4 (Q K V : S4.Idx → EReal) : S4.Idx → EReal := fun y =>
  attnR (fun d => Q (ix4 (y 0) (y 1) (y 2) d)) (fun j d => K (ix4 (y 0) (y 1) j d)) (fun j => V (ix4 (y 0) (y 1) j (y 3)))

/-- Attention over [32,2048,64] arrays (batch and head one axis), dividing last. -/
def out3 (Q K V : S3.Idx → EReal) : S3.Idx → EReal := fun y =>
  attnK (fun d => Q (ix3 (y 0) (y 1) d)) (fun j d => K (ix3 (y 0) j d)) (fun j => V (ix3 (y 0) j (y 2)))

/-- On real arrays the two array functions agree. -/
theorem ref4_eq_out4 {Q K V : S4.Idx → EReal} (hQ : ∀ i, IsReal (Q i)) (hK : ∀ i, IsReal (K i))
    (hV : ∀ i, IsReal (V i)) : ref4 Q K V = out4 Q K V :=
  funext fun _ => attnR_eq_attnK (fun _ => hQ _) (fun _ _ => hK _) (fun _ => hV _)

/-- The flattened position of (b, h) on the joint batch-head axis. -/
def bh (b : Fin 2) (h : Fin 16) : Fin 32 := ⟨16 * b.val + h.val, by have := b.isLt; have := h.isLt; omega⟩

/-- A [2,16,2048,64] array flattened to [32,2048,64] reads, at (16·b + h, i, d), the entry (b, h, i, d). -/
theorem flatten_apply {α : Type} (X : S4.Idx → α) (hc : S4.ShapeCasts S3) (b : Fin 2) (h : Fin 16) (i : Fin 2048)
    (d : Fin 64) : shapeCast S3 X hc (ix3 (bh b h) i d) = X (ix4 b h i d) :=
  shapeCast_apply X hc _ _ (by
    rw [Shape.rowMajor_val_four, Shape.rowMajor_val_three]
    show ((b.val * 16 + h.val) * 2048 + i.val) * 64 + d.val = ((16 * b.val + h.val) * 2048 + i.val) * 64 + d.val
    rw [Nat.mul_comm b.val 16])

/-- A [32,2048,64] array unflattened to [2,16,2048,64] reads, at (b, h, i, d), the entry (16·b + h, i, d). -/
theorem unflatten_apply {α : Type} (X : S3.Idx → α) (hc : S3.ShapeCasts S4) (b : Fin 2) (h : Fin 16) (i : Fin 2048)
    (d : Fin 64) : shapeCast S4 X hc (ix4 b h i d) = X (ix3 (bh b h) i d) :=
  shapeCast_apply X hc _ _ (by
    rw [Shape.rowMajor_val_four, Shape.rowMajor_val_three]
    show ((16 * b.val + h.val) * 2048 + i.val) * 64 + d.val = ((b.val * 16 + h.val) * 2048 + i.val) * 64 + d.val
    rw [Nat.mul_comm b.val 16])

/-- Flatten the inputs, attend per joint batch-head, unflatten: attention over the four-axis arrays. -/
theorem unflatten_out3 (Q K V : S4.Idx → EReal) (hc : S4.ShapeCasts S3) (hc' : S3.ShapeCasts S4) :
    shapeCast S4 (out3 (shapeCast S3 Q hc) (shapeCast S3 K hc) (shapeCast S3 V hc)) hc' = out4 Q K V := by
  funext y
  obtain ⟨b, h, i, d, rfl⟩ : ∃ (b : Fin 2) (h : Fin 16) (i : Fin 2048) (d : Fin 64), y = ix4 b h i d :=
    ⟨y 0, y 1, y 2, y 3, eq_ix4 y⟩
  rw [unflatten_apply]
  show attnK (fun dd => shapeCast S3 Q hc (ix3 (bh b h) i dd)) (fun j dd => shapeCast S3 K hc (ix3 (bh b h) j dd))
      (fun j => shapeCast S3 V hc (ix3 (bh b h) j d))
    = attnK (fun dd => Q (ix4 b h i dd)) (fun j dd => K (ix4 b h j dd)) (fun j => V (ix4 b h j d))
  simp only [flatten_apply]

end Cert.Attn

end
-- ==== Proof.LibIx2.lean ====
/-
  Two general readings at an entry of a rank-two result.

  A product with ONE contracted axis, into a zero accumulator, is at entry (p, n) the sum over the contracted
  coordinate k of the left operand at L k times the right at R k, once the operand indices at the contraction
  position whose one coordinate is k are known to be L k and R k (whatever the operands' shapes and whichever of
  their axes is contracted).  And a column [a, 1] broadcast along its rows to [a, b] reads, at (p, c), the
  column's entry p.
-/
import Idealize.ShloMosaic.Lib.Pipeline.Value
import Idealize.ShloMosaic.Lib.ValueIdx
import Idealize.ShloMosaic.PureOps.Ideal.Laws

noncomputable section

namespace Cert.LibIx2

open Idealize.ShloMosaic Idealize.ShloMosaic.ValueIdx
open scoped BigOperators

/-- A product with one contracted axis of extent K, into the zero accumulator, at entry (p, n): the sum over
    k of the left operand at L k times the right at R k, where L k and R k are the operand indices at the
    contraction position whose one coordinate is k. -/
theorem matmul_zero_ix2 {sl sr : Shape} {M N K : ℕ} (D : DotDims sl sr ⟨2, ![M, N]⟩) (hr : D.contr.rank = 1)
    (hs : D.contr.size ⟨0, by omega⟩ = K) (l : FVec Ideal sl .f32) (r : FVec Ideal sr .f32) (p : Fin M) (n : Fin N)
    (L : Fin K → sl.Idx) (R : Fin K → sr.Idx)
    (hL : ∀ (k : Fin K) (q : D.contr.Idx), (q ⟨0, by omega⟩ : ℕ) = k.val → D.lhsIdx (ix2 p n) q = L k)
    (hR : ∀ (k : Fin K) (q : D.contr.Idx), (q ⟨0, by omega⟩ : ℕ) = k.val → D.rhsIdx (ix2 p n) q = R k) :
    matmul D none l r (constant ⟨2, ![M, N]⟩ .f32 0x00000000#32) (ix2 p n) = ∑ k : Fin K, l (L k) * r (R k) := by
  simp only [matmul]
  rw [Ideal.matmul_constant_zero_apply, ← Equiv.sum_comp (contrEquiv1 D K hr hs).symm]
  refine Finset.sum_congr rfl fun k _ => ?_
  rw [hL k _ (contrEquiv1_symm_val D K hr hs k), hR k _ (contrEquiv1_symm_val D K hr hs k)]

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibIx2

end
-- ==== Proof.LibRowReduce.lean ====
/-
  Row reductions kept as a column and broadcast back, read at an entry.

  jnp.max(x, axis=-1, keepdims=True) and jnp.sum(x, axis=-1, keepdims=True) of an [a, b] array lower to a
  reduction over axis 1 into [a], a cast to the column [a, 1], and (where the column meets an [a, c] array) a
  broadcast along the rows. At entry (r, d) of that [a, c] array sits the reduction of row r: the sum of its b
  entries, or their maximum folded from the accumulator's value.
-/
import proofs.«405103_j67594195305169_3_alg».proof.Proof.LibIx2
import Idealize.ShloMosaic.Lib.Pipeline.Value
import Idealize.ShloMosaic.Lib.ValueIdx
import Idealize.ShloMosaic.PureOps.Ideal.Laws

noncomputable section

namespace Cert.LibRowReduce

open Idealize.ShloMosaic Idealize.ShloMosaic.ValueIdx Cert.LibIx2
open scoped BigOperators

/-- A vector [a] cast to the column [a, 1] reads, at (r, u), the vector's entry r. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- Over the reduced index r of an [a, b] array reduced along axis 1, the source index with coordinate k on
    that axis is (r, k). -/
theorem lift_row {a b : ℕ} (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- The row sums of an [a, b] array, kept as a column and broadcast to [a, c]: at (r, d), the sum of row r. -/
theorem rowSum_keepdims_apply {φ : FTy} {a b c : ℕ} (e : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hsc : (⟨1, ![a]⟩ : Shape).ShapeCasts ⟨2, ![a, 1]⟩) (hb : (⟨2, ![a, 1]⟩ : Shape).Broadcasts ⟨2, ![a, c]⟩)
    (r : Fin a) (d : Fin c) :
    broadcastTo ⟨2, ![a, c]⟩ (shapeCast ⟨2, ![a, 1]⟩ (multiReduction .add [1] ⟨1, ![a]⟩ e acc h hφ hacc) hsc) hb (ix2 r d)
      = ∑ k : Fin b, e (ix2 r k) := by
  rw [broadcastTo_a1_ab_apply, shapeCast_a_a1_apply]
  refine (Ideal.multiReduction_add_single e acc h hφ hacc (ix1 r)).trans ?_
  show ∑ k : Fin b, e (h.lift (ix1 r) k) = _
  exact Finset.sum_congr rfl fun k _ => by rw [lift_row]

/-- The row maxima of an [a, b] array, kept as a column and broadcast to [a, c]: at (r, d), the maximum of row r
    folded from the accumulator's value. -/
theorem rowMax_keepdims_apply {φ : FTy} {a b c : ℕ} (e : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hsc : (⟨1, ![a]⟩ : Shape).ShapeCasts ⟨2, ![a, 1]⟩) (hb : (⟨2, ![a, 1]⟩ : Shape).Broadcasts ⟨2, ![a, c]⟩)
    (r : Fin a) (d : Fin c) :
    broadcastTo ⟨2, ![a, c]⟩ (shapeCast ⟨2, ![a, 1]⟩ (multiReduction .maximumf [1] ⟨1, ![a]⟩ e acc h hφ hacc) hsc) hb (ix2 r d)
      = (Finset.univ : Finset (Fin b)).fold max (Ideal.ofBits φ acc) (fun k => e (ix2 r k)) := by
  rw [broadcastTo_a1_ab_apply, shapeCast_a_a1_apply]
  refine (Ideal.multiReduction_maximumf_single e acc h hφ hacc (ix1 r)).trans ?_
  show (Finset.univ : Finset (Fin b)).fold max (Ideal.ofBits φ acc) (fun k => e (h.lift (ix1 r) k)) = _
  exact congrArg (fun f => (Finset.univ : Finset (Fin b)).fold max (Ideal.ofBits φ acc) f) (funext fun (k : Fin b) => congrArg e (lift_row h r k))

end Cert.LibRowReduce

end
-- ==== Proof.KernelPayload.lean ====
/-
  What one grid point's body computes, entry by entry.

  The body holds a [1,1024,64] block of queries and the whole [1,2048,64] keys and values of one batch-head.
  It scales the queries by 1/8, takes the scores as a product contracting the feature axis of both operands,
  the row maxima (kept as a column), the exponentials of score minus maximum, their row sums (kept as a
  column), the product of the exponentials with the values contracting the key axis, and divides that product
  by the row sums. The changes of float format in between are the identity on extended reals. So entry
  (0, r, d) of the stored block is attnK of query row r, the keys, and column d of the values.
-/
import proofs.«405103_j67594195305169_3_alg».proof.Proof.Gen.KernelIdeal.Skeleton
import proofs.«405103_j67594195305169_3_alg».proof.Proof.Spec
import proofs.«405103_j67594195305169_3_alg».proof.Proof.LibRowReduce
import Idealize.ShloMosaic.Lib.ValueLayout
import Idealize.ShloMosaic.PureOps.Ideal.Laws

noncomputable section

namespace Cert.Attn.Payload

open Cert.KernelIdeal Cert.KernelIdeal.Gen
open Idealize.ShloMosaic Idealize.ShloMosaic.ValueIdx Cert.Attn Cert.LibRowReduce
open scoped BigOperators

/-! ## The two products read at an entry -/

theorem lhs_qk_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs_qk_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhs_qk_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs_qk_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- Queries times keys, both contracted on their feature axis, into zero: entry (r, j) is the sum over the
    64 features of query r times key j. -/
theorem qk_apply (A : FVec Ideal S1024x64 .bf16) (B : FVec Ideal S2048x64 .bf16) (r : Fin 1024) (j : Fin 2048) :
    matmul dot_S1024x64_S2048x64_S1024x2048_1_1_0_0_n_n none A B (constant S1024x2048 .f32 0x00000000#32) (ix2 r j)
      = ∑ k : Fin 64, A (ix2 r k) * B (ix2 j k) := by
  simp only [matmul]
  rw [Ideal.matmul_constant_zero_apply, ← Equiv.sum_comp (contrEquiv1 dot_S1024x64_S2048x64_S1024x2048_1_1_0_0_n_n 64 rfl rfl).symm]
  refine Finset.sum_congr rfl fun k _ => ?_
  have hk := contrEquiv1_symm_val dot_S1024x64_S2048x64_S1024x2048_1_1_0_0_n_n 64 rfl rfl k
  have el : dot_S1024x64_S2048x64_S1024x2048_1_1_0_0_n_n.lhsIdx (ix2 r j) ((contrEquiv1 dot_S1024x64_S2048x64_S1024x2048_1_1_0_0_n_n 64 rfl rfl).symm k) = ix2 r k := funext fun a => Fin.ext (by
    match a with
    | ⟨0, _⟩ => exact lhs_qk_0 _ _
    | ⟨1, _⟩ => exact (lhs_qk_1 _ _).trans hk)
  have er : dot_S1024x64_S2048x64_S1024x2048_1_1_0_0_n_n.rhsIdx (ix2 r j) ((contrEquiv1 dot_S1024x64_S2048x64_S1024x2048_1_1_0_0_n_n 64 rfl rfl).symm k) = ix2 j k := funext fun a => Fin.ext (by
    match a with
    | ⟨0, _⟩ => exact rhs_qk_0 _ _
    | ⟨1, _⟩ => exact (rhs_qk_1 _ _).trans hk)
  rw [el, er]

theorem lhs_pv_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_pv_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs_pv_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs_pv_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- Weights times values, contracting the key axis, into zero: entry (r, d) is the sum over the 2048 keys of
    weight (r, j) times value (j, d). -/
theorem pv_apply (A : FVec Ideal S1024x2048 .bf16) (B : FVec Ideal S2048x64 .bf16) (r : Fin 1024) (d : Fin 64) :
    matmul dot_S1024x2048_S2048x64_S1024x64_1_0_0_1_n_n none A B (constant S1024x64 .f32 0x00000000#32) (ix2 r d)
      = ∑ k : Fin 2048, A (ix2 r k) * B (ix2 k d) := by
  simp only [matmul]
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 r d) ((contrEquiv1 dot_S1024x2048_S2048x64_S1024x64_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S1024x2048_S2048x64_S1024x64_1_0_0_1_n_n.rhsIdx (ix2 r d) ((contrEquiv1 dot_S1024x2048_S2048x64_S1024x64_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

/-! ## The body's intermediate arrays -/

variable (x0 : Vec Ideal S1x1024x64 .f32) (x1 x2 : Vec Ideal S1x2048x64 .f32)

/-- The score matrix of the block: scaled queries against keys. -/
def scoresV : FVec Ideal S1024x2048 .f32 :=
  matmul dot_S1024x64_S2048x64_S1024x2048_1_1_0_0_n_n none
    (truncf .bf16 (mulf (shapeCast S1024x64 x0 shapeCasts_S1x1024x64_S1024x64) (broadcast S1024x64 (Scalar.ofBits .f32 0x3E000000#32))) bitsLt_bf16_f32)
    (truncf .bf16 (shapeCast S2048x64 x1 shapeCasts_S1x2048x64_S2048x64) bitsLt_bf16_f32)
    (constant S1024x2048 .f32 0x00000000#32)

/-- The exponentials of score minus row maximum. -/
def weightsV : FVec Ideal S1024x2048 .f32 :=
  exp (subf (scoresV x0 x1) (broadcastTo S1024x2048 (shapeCast S1024x1
    (multiReduction .maximumf [1] S1024 (scoresV x0 x1) 0xFF800000#32 reduces_S1024x2048_S1024 (.inl rfl) rfl)
    shapeCasts_S1024_S1024x1) broadcasts_S1024x1_S1024x2048))

/-- The stored block, over the intermediate arrays. -/
theorem pay_eq : k0_pay1 (F := Ideal) x0 x1 x2
    = shapeCast S1x1024x64 (divf
        (matmul dot_S1024x2048_S2048x64_S1024x64_1_0_0_1_n_n none (truncf .bf16 (weightsV x0 x1) bitsLt_bf16_f32)
          (truncf .bf16 (shapeCast S2048x64 x2 shapeCasts_S1x2048x64_S2048x64) bitsLt_bf16_f32) (constant S1024x64 .f32 0x00000000#32))
        (broadcastTo S1024x64 (shapeCast S1024x1
          (multiReduction .add [1] S1024 (weightsV x0 x1) 0x00000000#32 reduces_S1024x2048_S1024 (.inl rfl) rfl)
          shapeCasts_S1024_S1024x1) broadcasts_S1024x1_S1024x64)) shapeCasts_S1024x64_S1x1024x64 := rfl

/-- Query row r of the block. -/
abbrev qrow (r : Fin 1024) : Fin 64 → EReal := fun d => x0 (ix3 (0 : Fin 1) r d)
/-- The keys of the block. -/
abbrev keys : Fin 2048 → Fin 64 → EReal := fun j d => x1 (ix3 (0 : Fin 1) j d)

theorem scoresV_apply (r : Fin 1024) (j : Fin 2048) :
    scoresV x0 x1 (ix2 r j) = score (qrow x0 r) (keys x1) j := by
  unfold scoresV
  rw [qk_apply]
  unfold score
  refine Finset.sum_congr rfl fun k _ => ?_
  rw [truncf_apply, truncf_apply, mulf_apply, shapeCast_1ab_ab_apply, shapeCast_1ab_ab_apply]
  rfl

theorem weightsV_apply (r : Fin 1024) (j : Fin 2048) :
    weightsV x0 x1 (ix2 r j) = weight (qrow x0 r) (keys x1) j := by
  have hm := rowMax_keepdims_apply (scoresV x0 x1) 0xFF800000#32 reduces_S1024x2048_S1024 (.inl rfl) rfl
    shapeCasts_S1024_S1024x1 broadcasts_S1024x1_S1024x2048 r j
  unfold weightsV weight rowMax
  exact congrArg₂ (fun a b => Ideal.exp (a - b)) (scoresV_apply x0 x1 r j)
    (hm.trans (congrArg (fun f => (Finset.univ : Finset (Fin 2048)).fold max (Ideal.ofBits .f32 0xFF800000#32) f)
      (funext fun k => scoresV_apply x0 x1 r k)))

/-- Entry (u, r, d) of the block the body stores. -/
theorem pay_apply (u : Fin 1) (r : Fin 1024) (d : Fin 64) :
    k0_pay1 (F := Ideal) x0 x1 x2 (ix3 u r d)
      = attnK (qrow x0 r) (keys x1) (fun j => x2 (ix3 (0 : Fin 1) j d)) := by
  rw [pay_eq, shapeCast_ab_1ab_apply, divf_apply, pv_apply]
  have hs := rowSum_keepdims_apply (weightsV x0 x1) 0x00000000#32 reduces_S1024x2048_S1024 (.inl rfl) rfl
    shapeCasts_S1024_S1024x1 broadcasts_S1024x1_S1024x64 r d
  unfold attnK
  refine congrArg₂ Ideal.div ?_ (hs.trans ?_)
  · exact Finset.sum_congr rfl fun k _ => by
      rw [truncf_apply, truncf_apply, weightsV_apply, shapeCast_1ab_ab_apply]
  · exact Finset.sum_congr rfl fun k _ => weightsV_apply x0 x1 r k

end Cert.Attn.Payload

end
-- ==== Proof.KernelValue.lean ====
/-
  The kernel's run, read: the result array is attention over the argument arrays.

  The grid has 32 × 2 points. Point (p, s) holds rows 1024·s … 1024·s + 1023 of the queries of batch-head p and
  all 2048 keys and values of p, and writes rows 1024·s … of the output of p; its body computes attention of those
  query rows against p's keys and values (KernelPayload). So the block written back at a point is that point's
  block of out3 of the three flattened arrays, the 64 blocks tile the [32,2048,64] output, and the output array
  after the region IS out3 of the flattened arguments. The host lines around the region flatten (batch, head) to
  one axis before it and unflatten the output after it, so the program's result is out4 of the arguments.
-/
import proofs.«405103_j67594195305169_3_alg».proof.Proof.Gen.KernelIdeal.Frame
import proofs.«405103_j67594195305169_3_alg».proof.Proof.KernelPayload
import Idealize.ShloMosaic.Lib.Pipeline.Value
import Idealize.ShloMosaic.Lib.StableHlo.Run

set_option maxRecDepth 16384

noncomputable section

namespace Cert.Attn.KernelValue

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)
open Cert.Attn Cert.Attn.Payload

variable (m : (ℓ : Loc nD τ sig) → Buf (Elt Ideal) ℓ) (ρ : Dev nD → PrngReg)

theorem hz3 : (![0, 0, 0] : Fin 3 → Nat) = fun _ => 0 := funext fun a => by fin_cases a <;> rfl

/-! ## One point's block, over variables -/

/-- If the three loaded blocks are the blocks (a, b) of Q and a of K and V — query rows 1024·b + r of
    batch-head a, every key and value row of a — then the stored block at y is out3 Q K V at the array index
    (a, 1024·b + y₁, y₂). -/
theorem block_apply (x0 : Vec Ideal S1x1024x64 .f32) (x1 x2 : Vec Ideal S1x2048x64 .f32) (Q K V : S3.Idx → EReal) (a b : ℕ)
    (h0 : ∀ (y : S1x1024x64.Idx) (i : S3.Idx), (i 0).val = a → (i 1).val = b * 1024 + (y 1).val → (i 2).val = (y 2).val → x0 y = Q i)
    (h1 : ∀ (y : S1x2048x64.Idx) (i : S3.Idx), (i 0).val = a → (i 1).val = (y 1).val → (i 2).val = (y 2).val → x1 y = K i)
    (h2 : ∀ (y : S1x2048x64.Idx) (i : S3.Idx), (i 0).val = a → (i 1).val = (y 1).val → (i 2).val = (y 2).val → x2 y = V i)
    (y : S1x1024x64.Idx) (i : S3.Idx) (hi0 : (i 0).val = a) (hi1 : (i 1).val = b * 1024 + (y 1).val) (hi2 : (i 2).val = (y 2).val) :
    k0_pay1 (F := Ideal) x0 x1 x2 y = out3 Q K V i := by
  obtain ⟨u, r, d, rfl⟩ : ∃ (u : Fin 1) (r : Fin 1024) (d : Fin 64), y = ix3 u r d := ⟨y 0, y 1, y 2, eq_ix3 y⟩
  rw [pay_apply]
  unfold out3
  have e0 : (fun dd : Fin 64 => x0 (ix3 (0 : Fin 1) r dd)) = fun dd => Q (ix3 (i 0) (i 1) dd) :=
    funext fun dd => h0 _ _ hi0 hi1 rfl
  have e1 : (fun (j : Fin 2048) (dd : Fin 64) => x1 (ix3 (0 : Fin 1) j dd)) = fun j dd => K (ix3 (i 0) j dd) :=
    funext fun j => funext fun dd => h1 _ _ hi0 rfl rfl
  have e2 : (fun j : Fin 2048 => x2 (ix3 (0 : Fin 1) j d)) = fun j => V (ix3 (i 0) j (i 2)) :=
    funext fun j => h2 _ _ hi0 rfl hi2
  show attnK (fun dd => x0 (ix3 (0 : Fin 1) r dd)) (fun j dd => x1 (ix3 (0 : Fin 1) j dd)) (fun j => x2 (ix3 (0 : Fin 1) j d)) = _
  rw [e0, e1, e2]

/-! ## The index maps over the grid -/

/-- The printed index maps, decided over the 64 points: the query window moves with the output window on the
    batch-head and row-block axes, the key and value windows follow it on the batch-head axis and stay at block 0
    on the others; the output's block indices stay in range. -/
theorem idx_facts : ∀ t : Fin cfg0.N, win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = 0
    ∧ win0_2.index t (2 : Fin 3) = 0
    ∧ win0_3.index t (0 : Fin 3) ≤ 31 ∧ win0_3.index t (1 : Fin 3) ≤ 1 ∧ win0_3.index t (2 : Fin 3) = 0 :=
  (by decide +kernel : ∀ t : Fin grid0.N, _)

/-- Every (batch-head, row-block) pair is some point's output block. -/
theorem idx_onto : ∀ (q0 : Fin 32) (q1 : Fin 2), ∃ t : Fin cfg0.N, win0_3.index t = ![q0.val, q1.val, 0] :=
  (by decide +kernel : ∀ (q0 : Fin 32) (q1 : Fin 2), ∃ t : Fin grid0.N, win0_3.index t = ![q0.val, q1.val, 0])

/-! ## What a point writes back, and the array after the region -/

/-- The output array after the region, as a function of the three arrays the region finds. -/
abbrev G3 (c : Dev nD) : S3.Idx → EReal := out3 (V m c main_v0) (V m c main_v1) (V m c main_v2)

/-- What point t writes back is block t of G3. -/
theorem flushed_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  unfold out0_3
  rw [View.canon_unit_zero hz3]
  simp only [View.ld_unit_zero (S := S1x1024x64) hz3, View.ld_unit_zero (S := S1x2048x64) hz3]
  obtain ⟨e00, e01, e02, e10, e11, e12, e20, e21, e22, b0, b1, e32⟩ := idx_facts t
  funext j
  show k0_pay1 (F := Ideal) (iblk m c 0 t) (iblk m c 1 t) (iblk m c 2 t) j
    = out3 (V m c main_v0) (V m c main_v1) (V m c main_v2) (((cfg0.win 3).blk t).view.emb j)
  refine block_apply (iblk m c 0 t) (iblk m c 1 t) (iblk m c 2 t) (V m c main_v0) (V m c main_v1) (V m c main_v2)
    (win0_3.index t (0 : Fin 3)) (win0_3.index t (1 : Fin 3)) ?_ ?_ ?_ j (((cfg0.win 3).blk t).view.emb j) ?_ ?_ ?_
  · intro y i h0 h1 h2
    show V m c main_v0 (((cfg0.win 0).blk t).view.emb y) = V m c main_v0 i
    refine congrArg (V m c main_v0) (funext fun a => Fin.ext ?_)
    match a with
    | ⟨0, _⟩ => show win0_0.index t (0 : Fin 3) * 1 + 1 * (y 0).val = (i 0).val; have hy : (y 0).val < 1 := (y 0).isLt; omega
    | ⟨1, _⟩ => show win0_0.index t (1 : Fin 3) * 1024 + 1 * (y 1).val = (i 1).val; omega
    | ⟨2, _⟩ => show win0_0.index t (2 : Fin 3) * 64 + 1 * (y 2).val = (i 2).val; omega
  · intro y i h0 h1 h2
    show V m c main_v1 (((cfg0.win 1).blk t).view.emb y) = V m c main_v1 i
    refine congrArg (V m c main_v1) (funext fun a => Fin.ext ?_)
    match a with
    | ⟨0, _⟩ => show win0_1.index t (0 : Fin 3) * 1 + 1 * (y 0).val = (i 0).val; have hy : (y 0).val < 1 := (y 0).isLt; omega
    | ⟨1, _⟩ => show win0_1.index t (1 : Fin 3) * 2048 + 1 * (y 1).val = (i 1).val; omega
    | ⟨2, _⟩ => show win0_1.index t (2 : Fin 3) * 64 + 1 * (y 2).val = (i 2).val; omega
  · intro y i h0 h1 h2
    show V m c main_v2 (((cfg0.win 2).blk t).view.emb y) = V m c main_v2 i
    refine congrArg (V m c main_v2) (funext fun a => Fin.ext ?_)
    match a with
    | ⟨0, _⟩ => show win0_2.index t (0 : Fin 3) * 1 + 1 * (y 0).val = (i 0).val; have hy : (y 0).val < 1 := (y 0).isLt; omega
    | ⟨1, _⟩ => show win0_2.index t (1 : Fin 3) * 2048 + 1 * (y 1).val = (i 1).val; omega
    | ⟨2, _⟩ => show win0_2.index t (2 : Fin 3) * 64 + 1 * (y 2).val = (i 2).val; omega
  · show win0_3.index t (0 : Fin 3) * 1 + 1 * (j 0).val = win0_3.index t (0 : Fin 3); have hj : (j 0).val < 1 := (j 0).isLt; omega
  · show win0_3.index t (1 : Fin 3) * 1024 + 1 * (j 1).val = win0_3.index t (1 : Fin 3) * 1024 + (j 1).val; omega
  · show win0_3.index t (2 : Fin 3) * 64 + 1 * (j 2).val = (j 2).val; omega

/-- An index of the output array is in point t's block iff each coordinate is in the block's range on its axis. -/
theorem mem_blk (t : Fin cfg0.N) (i : S32x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v3).slice (win0_3.rect t)).set ↔ _
  rw [View.set_slice_whole, Rect.mem_set_unit]
  exact Iff.rfl

/-- The 64 blocks tile the output: index (p, n, d) is in the block of the point at (p, n / 1024). -/
theorem cover (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- The output array after the region is G3. -/
theorem final3 (c : Dev nD) : (dats m 0 c).arrAt 3 cfg0.N = G3 m c :=
  (dats m 0 c).arrAt_eq_of_cover 3 (G3 m c) (fun t _ => flushed_eq m c t) cover

/-! ## The host lines around the region -/

theorem V_main_v0 (c : Dev nD) : (V m c main_v0 : S32x2048x64.Idx → EReal)
    = shapeCast S32x2048x64 (m ((c : Thread nD τ).loc main_arg0)) shapeCasts_S2x16x2048x64_S32x2048x64 := by
  show StableHlo.after hostOps0 (fun b => m (c, b)) (Proc.devRef .tc main_v0) = _
  after_results
  rfl
theorem V_main_v1 (c : Dev nD) : (V m c main_v1 : S32x2048x64.Idx → EReal)
    = shapeCast S32x2048x64 (m ((c : Thread nD τ).loc main_arg1)) shapeCasts_S2x16x2048x64_S32x2048x64 := by
  show StableHlo.after hostOps0 (fun b => m (c, b)) (Proc.devRef .tc main_v1) = _
  after_results
  rfl
theorem V_main_v2 (c : Dev nD) : (V m c main_v2 : S32x2048x64.Idx → EReal)
    = shapeCast S32x2048x64 (m ((c : Thread nD τ).loc main_arg2)) shapeCasts_S2x16x2048x64_S32x2048x64 := by
  show StableHlo.after hostOps0 (fun b => m (c, b)) (Proc.devRef .tc main_v2) = _
  after_results
  rfl

/-- The program's result after the line that follows the region: attention over the four-axis arguments. -/
theorem tail_eq (c : Dev nD) :
    Pipeline.afterTail₀ cfgs (dats m) 0 (V0 m) [hostOps1] c main_v4
      = out4 (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  refine (congrArg (fun X : S32x2048x64.Idx → EReal => shapeCast S2x16x2048x64 X shapeCasts_S32x2048x64_S2x16x2048x64)
    ((Pipeline.withArrays_arr spec0 launch0.win.arr_inj c (V0 m c) (fun w => (dats m 0 c).arrAt w cfg0.N) 3).trans (final3 m c))).trans ?_
  unfold G3
  rw [V_main_v0, V_main_v1, V_main_v2]
  exact unflatten_out3 _ _ _ _ _

/-! ## The run -/

/-- Every weakly fair execution of the program terminates with its result array at attention over the
    arguments, the arguments unchanged. -/
theorem run : θ_run defs (onTc (τ := τ) (main (F := Ideal))) ⟨m, fun _ => 0, ρ⟩ fun r => ∀ c : Dev nD,
      r.2.mem ((c.tc : Thread nD τ).loc main_v4)
        = out4 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Attn.KernelValue

end
-- ==== Proof.RefValue.lean ====
/-
  The reference program's result, entry by entry, is attention with the weights normalised first.

  Its operations in order: the queries times 1/8; the scores (a product contracting the feature axis, batched over
  batch and head); each row's maximum, folded from -∞ and then joined once more with -∞ (which changes nothing);
  the exponential of score minus maximum; each row's sum from 0; the quotient weight / sum; and the product of
  those normalised weights with the values, contracting the key axis. Read at entry (b, h, i, d) this is
  attnR of query row (b, h, i), the keys of (b, h) and column d of the values of (b, h).
-/
import proofs.«405103_j67594195305169_3_alg».proof.Proof.Gen.ReferenceIdeal.Read
import proofs.«405103_j67594195305169_3_alg».proof.Proof.Spec
import Idealize.ShloMosaic.PureOps.Reduce

noncomputable section

namespace Cert.Attn.RefValue

open Cert.ReferenceIdeal Cert.ReferenceIdeal.Gen Cert.ReferenceIdeal.Read
open Idealize.ShloMosaic Idealize.ShloMosaic.ValueIdx Cert.Attn Cert.Softmax
open scoped BigOperators

variable (x0 x1 x2 : (⟨S2x16x2048x64, .f32⟩ : BufTy).Contents (Elt Ideal))

/-- Query row (b, h, i). -/
abbrev qrow (b : Fin 2) (h : Fin 16) (i : Fin 2048) : Fin 64 → EReal := fun d => x0 (ix4 b h i d)
/-- The keys of (b, h). -/
abbrev keys (b : Fin 2) (h : Fin 16) : Fin 2048 → Fin 64 → EReal := fun j d => x1 (ix4 b h j d)

/-- The score matrix at (b, h, i, j). -/
theorem scores_apply (b : Fin 2) (h : Fin 16) (i j : Fin 2048) :
    val_main_v2 (F := Ideal) x0 x1 (ix4 b h i j) = score (qrow x0 b h i) (keys x1 b h) j := by
  rw [val_main_v2_apply]
  unfold score
  refine Finset.sum_congr rfl fun k _ => ?_
  rw [val_main_v1_apply, val_main_v0_apply, val_main_cst_apply]
  have el : lidx_main_v2 (ix4 b h i j) k = ix4 b h i k :=
    funext fun a => Fin.ext (by match a with | ⟨0, _⟩ => rfl | ⟨1, _⟩ => rfl | ⟨2, _⟩ => rfl | ⟨3, _⟩ => rfl)
  have er : ridx_main_v2 (ix4 b h i j) k = ix4 b h j k :=
    funext fun a => Fin.ext (by match a with | ⟨0, _⟩ => rfl | ⟨1, _⟩ => rfl | ⟨2, _⟩ => rfl | ⟨3, _⟩ => rfl)
  rw [el, er]
  rfl

/-- Row (b, h, i)'s maximum as the reduction computes it: the fold of max from -∞ over the row's scores. -/
theorem rowmax_apply (b : Fin 2) (h : Fin 16) (i : Fin 2048) :
    val_main_v3 (F := Ideal) x0 x1 (ix3 b h i) = rowMax (qrow x0 b h i) (keys x1 b h) := by
  unfold val_main_v3
  have hr : S2x16x2048x2048.Reduces [3] S2x16x2048 := by decide
  rw [Host.reduce_eq_fold_single FloatOps.maximumf _ _ reducesTo_S2x16x2048x2048_S2x16x2048_d3 hr h_S_]
  unfold rowMax
  show (Finset.univ : Finset (Fin 2048)).fold max (Ideal.ofBits .f32 0xFF800000#32)
      (fun k => val_main_v2 (F := Ideal) x0 x1 (hr.lift (ix3 b h i) k)) = _
  refine congrArg (fun f => (Finset.univ : Finset (Fin 2048)).fold max (Ideal.ofBits .f32 0xFF800000#32) f)
    (funext fun (k : Fin 2048) => ?_)
  have e : hr.lift (ix3 b h i) k = ix4 b h i k :=
    funext fun a => Fin.ext (by match a with | ⟨0, _⟩ => rfl | ⟨1, _⟩ => rfl | ⟨2, _⟩ => rfl | ⟨3, _⟩ => rfl)
  rw [e, scores_apply]

/-- Joining the maximum with -∞ once more leaves it. -/
theorem rowmax_joined_apply (b : Fin 2) (h : Fin 16) (i : Fin 2048) :
    val_main_v5 (F := Ideal) x0 x1 (ix3 b h i) = rowMax (qrow x0 b h i) (keys x1 b h) := by
  rw [val_main_v5_apply, val_main_v4_apply, val_main_cst_1_apply, rowmax_apply]
  show max (Ideal.ofBits .f32 0xFF800000#32) _ = _
  rw [ofBits_neg_inf]
  exact max_eq_right bot_le

/-- The maximum broadcast back over the key axis. -/
theorem rowmax_bcast_apply (b : Fin 2) (h : Fin 16) (i j : Fin 2048) :
    val_main_v7 (F := Ideal) x0 x1 (ix4 b h i j) = rowMax (qrow x0 b h i) (keys x1 b h) := by
  rw [val_main_v7_apply, val_main_v6_apply]
  have e : idx_main_v6 (idx_main_v7 (ix4 b h i j)) = ix3 b h i :=
    funext fun a => Fin.ext (by match a with | ⟨0, _⟩ => rfl | ⟨1, _⟩ => rfl | ⟨2, _⟩ => rfl)
  rw [e, rowmax_joined_apply]

/-- The unnormalised weights. -/
theorem weights_apply (b : Fin 2) (h : Fin 16) (i j : Fin 2048) :
    val_main_v9 (F := Ideal) x0 x1 (ix4 b h i j) = weight (qrow x0 b h i) (keys x1 b h) j := by
  rw [val_main_v9_apply, val_main_v8_apply, scores_apply, rowmax_bcast_apply]
  rfl

/-- Row (b, h, i)'s sum of weights, from 0. -/
theorem weightsum_apply (b : Fin 2) (h : Fin 16) (i : Fin 2048) :
    val_main_v10 (F := Ideal) x0 x1 (ix3 b h i) = ∑ j, weight (qrow x0 b h i) (keys x1 b h) j := by
  rw [val_main_v10_apply, val_main_cst_2_apply]
  show Ideal.ofBits .f32 0x00000000#32 + _ = _
  rw [Ideal.ofBits_zero_f32, zero_add]
  refine Finset.sum_congr rfl fun k _ => ?_
  have e : idx_main_v10 (ix3 b h i) k = ix4 b h i k :=
    funext fun a => Fin.ext (by match a with | ⟨0, _⟩ => rfl | ⟨1, _⟩ => rfl | ⟨2, _⟩ => rfl | ⟨3, _⟩ => rfl)
  rw [e, weights_apply]

/-- The sum broadcast back over the key axis. -/
theorem weightsum_bcast_apply (b : Fin 2) (h : Fin 16) (i j : Fin 2048) :
    val_main_v12 (F := Ideal) x0 x1 (ix4 b h i j) = ∑ j, weight (qrow x0 b h i) (keys x1 b h) j := by
  rw [val_main_v12_apply, val_main_v11_apply]
  have e : idx_main_v11 (idx_main_v12 (ix4 b h i j)) = ix3 b h i :=
    funext fun a => Fin.ext (by match a with | ⟨0, _⟩ => rfl | ⟨1, _⟩ => rfl | ⟨2, _⟩ => rfl)
  rw [e, weightsum_apply]

/-- The normalised weights. -/
theorem softmax_apply (b : Fin 2) (h : Fin 16) (i j : Fin 2048) :
    val_main_v13 (F := Ideal) x0 x1 (ix4 b h i j)
      = Ideal.div (weight (qrow x0 b h i) (keys x1 b h) j) (∑ j, weight (qrow x0 b h i) (keys x1 b h) j) := by
  rw [val_main_v13_apply, weights_apply, weightsum_bcast_apply]
  rfl

/-- The reference's result array is attention with the weights normalised first. -/
theorem result_eq : val_main_v14 (F := Ideal) x0 x1 x2 = ref4 x0 x1 x2 := by
  funext y
  obtain ⟨b, h, i, d, rfl⟩ : ∃ (b : Fin 2) (h : Fin 16) (i : Fin 2048) (d : Fin 64), y = ix4 b h i d :=
    ⟨y 0, y 1, y 2, y 3, eq_ix4 y⟩
  rw [val_main_v14_apply]
  show _ = attnR (qrow x0 b h i) (keys x1 b h) (fun j => x2 (ix4 b h j d))
  unfold attnR
  refine Finset.sum_congr rfl fun k _ => ?_
  have el : lidx_main_v14 (ix4 b h i d) k = ix4 b h i k :=
    funext fun a => Fin.ext (by match a with | ⟨0, _⟩ => rfl | ⟨1, _⟩ => rfl | ⟨2, _⟩ => rfl | ⟨3, _⟩ => rfl)
  have er : ridx_main_v14 (ix4 b h i d) k = ix4 b h k d :=
    funext fun a => Fin.ext (by match a with | ⟨0, _⟩ => rfl | ⟨1, _⟩ => rfl | ⟨2, _⟩ => rfl | ⟨3, _⟩ => rfl)
  rw [el, er, softmax_apply]

end Cert.Attn.RefValue

end
-- ==== Proof.Finite.lean ====
/-
  The precondition read back: every entry of the three inputs is a real number.

  The precondition is the conjunction, over the three arrays, of "every |x| is below +∞". The conjunction being 1
  makes each of the three reductions-by-and 1; a reduction by and over all axes that is 1 met a 1 at every entry;
  and |x| < +∞ on the extended reals excludes x = +∞ and x = -∞.
-/
import proofs.«405103_j67594195305169_3_alg».proof.Pre_finite_inputs
import proofs.«405103_j67594195305169_3_alg».proof.Proof.Gen.Pre_finite_inputs
import proofs.«405103_j67594195305169_3_alg».proof.Proof.LibRealVariance
import Idealize.ShloMosaic.Lib.ReduceAll
import Idealize.ShloMosaic.Lib.ValueIdx
import Idealize.ShloMosaic.PureOps.Ideal.Laws

noncomputable section

namespace Cert.Attn.Finite

open Idealize.ShloMosaic Cert.Alg Cert.Pre_finite_inputs

instance : Subsingleton S_.Idx := ⟨fun a b => funext fun d => d.elim0⟩

/-- An entry whose comparison |x| < +∞ answered 1 is a real number. -/
theorem isReal_of_cmp {x : EReal}
    (h : FloatOps.cmpf (F := Ideal) (φ := .f32) .olt (FloatOps.hostAbsf x) (Ideal.ofBits .f32 0x7F800000#32) = 1#1) : IsReal x := by
  refine isReal_of_abs_lt_top ?_
  have ht : Ideal.ofBits .f32 0x7F800000#32 = ⊤ := by simp [Ideal.ofBits, Ideal.ieee]
  rw [ht] at h
  by_contra hlt
  have : FloatOps.cmpf (F := Ideal) (φ := .f32) .olt (FloatOps.hostAbsf x) ⊤ = 0#1 := by
    show BitVec.ofBool (decide (max x (-x) < ⊤)) = 0#1
    rw [decide_eq_false hlt]; rfl
  rw [this] at h
  exact absurd h (by decide)

/-- Under the precondition every entry of the three arrays is a real number. -/
theorem all_real (a0 a1 a2 : FVec Ideal S2x16x2048x64 .f32)
    (h : fn (F := Ideal) a0 a1 a2 = fun _ => 1#1) :
    (∀ i, IsReal (a0 i)) ∧ (∀ i, IsReal (a1 i)) ∧ (∀ i, IsReal (a2 i)) := by
  have h0 := congrFun h ValueIdx.ix0
  dsimp only [fn] at h0
  obtain ⟨h01, h2⟩ := IntOp.andi_eq_one.1 h0
  obtain ⟨h0', h1⟩ := IntOp.andi_eq_one.1 h01
  exact ⟨fun i => isReal_of_cmp (Host.reduce_andi_all _ _ _ _ _ h0' i),
    fun i => isReal_of_cmp (Host.reduce_andi_all _ _ _ _ _ h1 i),
    fun i => isReal_of_cmp (Host.reduce_andi_all _ _ _ _ _ h2 i)⟩

end Cert.Attn.Finite

end
-- ==== Proof.lean ====
/-
  Softmax attention in one Pallas kernel against the einsum-softmax-einsum reference, over the extended reals.

  Both programs scale the queries by 1/8, take the scores q·kᵀ per (batch, head), subtract each row's maximum,
  exponentiate, and average the values with those weights. They differ in where the division by the weights' sum
  happens: the kernel divides the weighted sum of the values (attnK), the reference normalises the weights first
  and then sums (attnR). On real inputs these agree: the scores are real, the row maximum of 2048 reals is real,
  each weight exp (score - max) is a positive real, their sum is a positive real, and dividing before or after
  the sum is distributivity in ℝ. The precondition (every input finite) is exactly what makes the entries real;
  at an infinity distributivity on [-∞, +∞] fails, so it is used.

  The kernel side: the grid's 64 points each write one [1024, 64] block of the flattened [32, 2048, 64] output,
  the block of attention of its query rows against its batch-head's keys and values; the blocks tile the output;
  the host lines around the region flatten and unflatten the (batch, head) axes. The reference side: its nineteen
  host operations read one at a time at an index. The three frames are the kernel's generated frames and the
  reference's run; there is no rewrite in the idealization, so its preservation claim is trivial.
-/
import proofs.«405103_j67594195305169_3_alg».proof.Defs
import proofs.«405103_j67594195305169_3_alg».proof.Proof.Gen.Kernel
import proofs.«405103_j67594195305169_3_alg».proof.Proof.Gen.Kernel.Skeleton
import proofs.«405103_j67594195305169_3_alg».proof.Proof.Gen.Kernel.Launch
import proofs.«405103_j67594195305169_3_alg».proof.Proof.Gen.Kernel.Points
import proofs.«405103_j67594195305169_3_alg».proof.Proof.Gen.Kernel.Frame
import proofs.«405103_j67594195305169_3_alg».proof.Proof.Gen.KernelIdeal
import proofs.«405103_j67594195305169_3_alg».proof.Proof.Gen.KernelIdeal.Skeleton
import proofs.«405103_j67594195305169_3_alg».proof.Proof.Gen.KernelIdeal.Launch
import proofs.«405103_j67594195305169_3_alg».proof.Proof.Gen.KernelIdeal.Points
import proofs.«405103_j67594195305169_3_alg».proof.Proof.Gen.KernelIdeal.Frame
import proofs.«405103_j67594195305169_3_alg».proof.Proof.Gen.ReferenceIdeal
import proofs.«405103_j67594195305169_3_alg».proof.Proof.Gen.ReferenceIdeal.Run
import proofs.«405103_j67594195305169_3_alg».proof.Proof.Gen.ReferenceIdeal.Read
import proofs.«405103_j67594195305169_3_alg».proof.Proof.Gen.Pre_finite_inputs
import proofs.«405103_j67594195305169_3_alg».proof.Proof.KernelValue
import proofs.«405103_j67594195305169_3_alg».proof.Proof.RefValue
import proofs.«405103_j67594195305169_3_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array is out4 of them (dividing after the weighted sum) and the
    reference's is ref4 of them (normalising the weights first); the arguments are real by the precondition, and on
    real arguments ref4 = out4. -/
theorem algebraic : Cert.algebraic_KernelIdeal_ReferenceIdeal := by
  intro m ρ m' ρ' hpre hagree
  refine ⟨fun c => Cert.Attn.out4
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Attn.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq (F := Ideal) _ _ _).trans ?_
  rw [Cert.Attn.RefValue.result_eq, (hagree c).1, (hagree c).2.1, (hagree c).2.2]
  obtain ⟨h0, h1, h2⟩ := Cert.Attn.Finite.all_real _ _ _ (hpre c)
  exact Cert.Attn.ref4_eq_out4 h0 h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
